-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S2000x128 : Shape := ⟨2, ![2000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S8000x128 : Shape := ⟨2, ![8000, 128]⟩
abbrev S8000x1 : Shape := ⟨2, ![8000, 1]⟩
abbrev S100000x1 : Shape := ⟨2, ![100000, 1]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S8000x64 : Shape := ⟨2, ![8000, 64]⟩
abbrev S1x64 : Shape := ⟨2, ![1, 64]⟩

abbrev nBuf : Space → Nat
  | .hbm => 132
  | .vmem => 22
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x64, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S1600000x1, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000, .f32⟩
  | 125 => ⟨S100000x1, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S2000x64, .f32⟩
  | .local _ .vmem, ⟨15, _⟩ => ⟨S2000x64, .f32⟩
  | .local _ .vmem, ⟨16, _⟩ => ⟨S8000x64, .f32⟩
  | .local _ .vmem, ⟨17, _⟩ => ⟨S8000x64, .f32⟩
  | .local _ .vmem, ⟨18, _⟩ => ⟨S8000x1, .f32⟩
  | .local _ .vmem, ⟨19, _⟩ => ⟨S8000x1, .f32⟩
  | .local _ .vmem, ⟨20, _⟩ => ⟨S8000x64, .f32⟩
  | .local _ .vmem, ⟨21, _⟩ => ⟨S8000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  broadcasts_S8000x1_S8000x64 : S8000x1.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S2000x128_S128x128_S2000x128_1_0_0_1_n_n_wf : DotDims.WF S2000x128 S128x128 S2000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1600000x64.size a
  hwx3_2 : ∀ i : grid3.Coords, EltTy.bits .f32 = 32 ∨ (Rect.block (s := S1600000x64) S8000x64.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x64, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x1, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S100000, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Region0.lean ====
import proofs.«174721_j31482110279899_1_alg».proof.Proof.Gen.KernelIdeal.Frame
import proofs.«174721_j31482110279899_1_alg».proof.Proof.LibPlainDot
import Idealize.ShloMosaic.Lib.Pipeline.Value
import Idealize.ShloMosaic.Lib.ValueIdx
import Idealize.ShloMosaic.PureOps.Ideal.Laws

/-!
  The first pallas_call, read as a value over the extended reals.

  The grid has 50 points; point `t` multiplies rows `2000 t … 2000 t + 1999` of the left array (all 128 columns) by the
  whole 128×128 right array and writes the 2000×128 product to the same rows of the output. The two operands are narrowed
  to bf16 first, which is the identity on extended reals, and the product is accumulated onto zero, so entry `(p, q)` of
  a block is `∑ k, x (p, k) * w (k, q)`. The 50 row blocks tile the output, so after the region the output array is the
  plain matrix product of the two arrays as the region found them.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the 128 contraction positions. -/
theorem pay_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.Lib.PlainDot.matmul_zero_apply (M := 2000) (K := 128) (N := 128) none
    (truncf .bf16 x0 bitsLt_bf16_f32) (truncf .bf16 x1 bitsLt_bf16_f32) p q

/-- The left array as the region finds it. -/
abbrev xarr (c : Dev nD) : FVec Ideal S100000x128 .f32 := V c main_arg0
/-- The right array as the region finds it. -/
abbrev warr (c : Dev nD) : FVec Ideal S128x128 .f32 := V c main_arg3

/-- The plain product of the two arrays the region reads, as the region finds them. -/
abbrev prod (c : Dev nD) : FVec Ideal S100000x128 .f32 :=
  Host.dotGeneral (F := Ideal) (DotDims.plain 100000 128 128) none (xarr V c) (warr V c)

/-- The whole product at an entry. -/
theorem prod_apply (c : Dev nD) (p : Fin 100000) (q : Fin 128) :
    prod V c (ix2 p q) = ∑ k : Fin 128, xarr V c (ix2 p k) * warr V c (ix2 k q) :=
  Cert.Lib.PlainDot.dotGeneral_apply (M := 100000) (K := 128) (N := 128) none _ (xarr V c) (warr V c) p q

/-- The printed index maps over the grid: the left operand's and the output's block move down one block of rows per
    point; the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  have ht : t.val < 50 := lt_of_lt_of_eq t.isLt (show cfg0.N = 50 from N_0)
  funext j
  obtain ⟨p, q, rfl⟩ : ∃ (p : Fin 2000) (q : Fin 128), j = ix2 p q := ⟨j 0, j 1, eq_ix2 j⟩
  have hp : p.val < 2000 := p.isLt
  -- the row of the whole array that row `p` of block `t` is
  let P : Fin 100000 := ⟨t.val * 2000 + p.val, by omega⟩
  show k0_pay1 (iblk0 V c 0 t) (iblk0 V c 1 t) (ix2 p q) = prod V c (((cfg0.win 2).blk t).view.emb (ix2 p q))
  have hi : ((cfg0.win 2).blk t).view.emb (ix2 p q) = ix2 P q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hi, prod_apply]
  refine (pay_apply _ _ p q).trans (Finset.sum_congr rfl fun k _ => ?_)
  have h0 : iblk0 V c 0 t (ix2 p k) = xarr V c (ix2 P k) := by
    show V c main_arg0 (((cfg0.win 0).blk t).view.emb (ix2 p k)) = V c main_arg0 (ix2 P k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : iblk0 V c 1 t (ix2 k q) = warr V c (ix2 k q) := by
    show V c main_arg3 (((cfg0.win 1).blk t).view.emb (ix2 k q)) = V c main_arg3 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the output array lies in point `t`'s block iff each coordinate lies in the block's range. -/
theorem mem_blk (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- The 50 row blocks tile the output: row `r` lies in the block of point `r / 2000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 2000, by rw [show cfg0.N = 50 from N_0]; omega⟩
  obtain ⟨-, -, -, -, e4, e5⟩ := idx_facts t
  have e4' : win0_2.index t (0 : Fin 2) = (i 0).val / 2000 := e4
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array is the plain product of the two arrays as the region found them. -/
theorem final (c : Dev nD) : (dat0 V c).arrAt 2 cfg0.N = prod V c :=
  (dat0 V c).arrAt_eq_of_cover 2 (prod V c) (fun t _ => flushed_eq V c t) (cover)

end Cert.KernelIdeal.Region0

end
-- ==== Proof.LibColumn.lean ====
/-
  A column read at an entry.

  An `n×1` array stretched along its unit axis to `n×c` (by a vector `broadcast`, or by the host's
  `broadcast_in_dim` with `dims = [0, 1]`) holds at entry `(p, q)` the column's entry `(p, 0)`. A length-`n` vector made a
  column, whether by a `reshape` to `n×1` or by `broadcast_in_dim` with `dims = [0]`, holds at `(p, 0)` the vector's entry
  `p`; so the two ways of making the column give the same array. A product with a stretched column is therefore the
  product, entry by entry, with the column's entry of the same row.
-/
import Idealize.ShloMosaic.Lib.ValueIdx
import Idealize.ShloMosaic.Lib.Pipeline.Value

noncomputable section

namespace Cert.Lib.Column

open Idealize.ShloMosaic Idealize.ShloMosaic.ValueIdx

variable {α : Type} {n c : Nat}

/-- The only index below one. -/
theorem fin_one_val (z : Fin 1) : z.val = 0 := by have := z.isLt; omega

/-- Every index of an `n×1` array is `(p, 0)`. -/
theorem eq_col (j : (⟨2, ![n, 1]⟩ : Shape).Idx) : j = ix2 (j 0) (0 : Fin 1) := by
  refine (eq_ix2 j).trans ?_
  exact congrArg (ix2 (j 0)) (Fin.ext (fin_one_val _))

/-- A vector `broadcast` of an `n×1` column to `n×c`, at entry `(p, q)`. -/
theorem broadcastTo_col_apply (x : (⟨2, ![n, 1]⟩ : Shape).Idx → α) (h : (⟨2, ![n, 1]⟩ : Shape).Broadcasts ⟨2, ![n, c]⟩)
    (p : Fin n) (q : Fin c) : broadcastTo ⟨2, ![n, c]⟩ x h (ix2 p q) = x (ix2 p (0 : Fin 1)) :=
  broadcastTo_apply x h (ix2 p q) (ix2 p (0 : Fin 1)) (fun a => by
    match a with
    | ⟨0, _⟩ =>
      show p.val = if n = 1 then 0 else p.val
      split
      · have := p.isLt; omega
      · rfl
    | ⟨1, _⟩ =>
      show (0 : Nat) = if (1 : Nat) = 1 then 0 else q.val
      rfl)

/-- The host's `broadcast_in_dim` (dims `[0, 1]`) of an `n×1` column to `n×c`, at entry `(p, q)`. -/
theorem broadcastInDim_col_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p (0 : Fin 1)) :=
  broadcastInDim_apply ![0, 1] h x (ix2 p q) (ix2 p (0 : Fin 1)) (fun a => by
    match a with
    | ⟨0, _⟩ =>
      show p.val = if n = 1 then 0 else p.val
      split
      · have := p.isLt; omega
      · rfl
    | ⟨1, _⟩ =>
      show (0 : Nat) = if (1 : Nat) = 1 then 0 else q.val
      rfl)

/-- A length-`n` vector reshaped to an `n×1` column, at entry `(p, 0)`. -/
theorem reshape_col_apply (v : (⟨1, ![n]⟩ : Shape).Idx → α) (h : (⟨1, ![n]⟩ : Shape).ShapeCasts ⟨2, ![n, 1]⟩)
    (p : Fin n) (z : Fin 1) : shapeCast ⟨2, ![n, 1]⟩ v h (ix2 p z) = v (ix1 p) :=
  shapeCast_apply v h (ix2 p z) (ix1 p) (by
    rw [Shape.rowMajor_val_one, Shape.rowMajor_val_two]
    show p.val = p.val * 1 + z.val
    have := fin_one_val z; omega)

/-- A length-`n` vector made a column by `broadcast_in_dim` (dims `[0]`), at entry `(p, 0)`. -/
theorem broadcastInDim_vec_col_apply (v : (⟨1, ![n]⟩ : Shape).Idx → α)
    (h : (⟨1, ![n]⟩ : Shape).BroadcastsInDim ⟨2, ![n, 1]⟩ ![0]) (p : Fin n) (z : Fin 1) :
    broadcastInDim ⟨2, ![n, 1]⟩ ![0] h v (ix2 p z) = v (ix1 p) :=
  broadcastInDim_apply ![0] h v (ix2 p z) (ix1 p) (fun a => by
    match a with
    | ⟨0, _⟩ =>
      show p.val = if n = 1 then 0 else p.val
      split
      · have := p.isLt; omega
      · rfl)

/-- The two ways of making a vector a column agree. -/
theorem reshape_col_eq_broadcastInDim (v : (⟨1, ![n]⟩ : Shape).Idx → α) (h₁ : (⟨1, ![n]⟩ : Shape).ShapeCasts ⟨2, ![n, 1]⟩)
    (h₂ : (⟨1, ![n]⟩ : Shape).BroadcastsInDim ⟨2, ![n, 1]⟩ ![0]) :
    shapeCast ⟨2, ![n, 1]⟩ v h₁ = broadcastInDim ⟨2, ![n, 1]⟩ ![0] h₂ v := by
  funext j
  obtain ⟨p, rfl⟩ : ∃ p : Fin n, j = ix2 p (0 : Fin 1) := ⟨j 0, eq_col j⟩
  rw [reshape_col_apply, broadcastInDim_vec_col_apply]

end Cert.Lib.Column

end
-- ==== Proof.Region1.lean ====
import proofs.«174721_j31482110279899_1_alg».proof.Proof.Gen.KernelIdeal.Frame
import proofs.«174721_j31482110279899_1_alg».proof.Proof.LibColumn
import Idealize.ShloMosaic.Lib.Pipeline.Value
import Idealize.ShloMosaic.Lib.ValueIdx

/-!
  The first edge-scaling pallas_call, read as a value over the extended reals.

  The grid has 200 points; point `t` takes rows `8000 t … 8000 t + 7999` of the gathered feature rows (128 columns) and
  of the per-edge weight column, stretches the column across the 128 columns, multiplies entry by entry and writes the
  block to the same rows of the output. The 200 row blocks tile the output, so after the region the output array is the
  gathered rows times the weight column stretched across the columns, the arrays taken as the region found them: the
  same array the host computes with a `broadcast_in_dim` and a product.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's entry: the feature entry times the weight of its row. -/
theorem pay_apply (v0 : Vec Ideal S8000x1 .f32) (v4 : Vec Ideal S8000x128 .f32) (p : Fin 8000) (q : Fin 128) :
    k1_pay1 v0 v4 (ix2 p q) = v4 (ix2 p q) * v0 (ix2 p (0 : Fin 1)) := by
  unfold k1_pay1
  simp only [shapeCast_self]
  exact congrArg (v4 (ix2 p q) * ·) (Cert.Lib.Column.broadcastTo_col_apply v0 broadcasts_S8000x1_S8000x128 p q)

/-- The gathered feature rows as the region finds them. -/
abbrev harr (c : Dev nD) : FVec Ideal S1600000x128 .f32 := V c main_v37
/-- The per-edge weight column as the region finds it. -/
abbrev narr (c : Dev nD) : FVec Ideal S1600000x1 .f32 := V c main_v30

/-- The feature rows times the weight column stretched across the columns. -/
abbrev scaled (hb : S1600000x1.BroadcastsInDim S1600000x128 (![0, 1] : Fin 2 → Fin S1600000x128.rank)) (c : Dev nD) :
    FVec Ideal S1600000x128 .f32 :=
  mulf (harr V c) (broadcastInDim S1600000x128 ![0, 1] hb (narr V c))

/-- That array at an entry. -/
theorem scaled_apply (hb : S1600000x1.BroadcastsInDim S1600000x128 (![0, 1] : Fin 2 → Fin S1600000x128.rank)) (c : Dev nD)
    (p : Fin 1600000) (q : Fin 128) :
    scaled V hb c (ix2 p q) = harr V c (ix2 p q) * narr V c (ix2 p (0 : Fin 1)) :=
  congrArg (harr V c (ix2 p q) * ·) (Cert.Lib.Column.broadcastInDim_col_apply (narr V c) hb p q)

/-- The printed index maps over the grid: every window's block moves down one block of rows per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows. -/
theorem flushed_eq (hb : S1600000x1.BroadcastsInDim S1600000x128 (![0, 1] : Fin 2 → Fin S1600000x128.rank)) (c : Dev nD)
    (t : Fin cfg1.N) :
    (dat1 V c).flushed 2 t = ((cfg1.win 2).blk t).view.read (Elt Ideal) (scaled V hb c) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e0, e1, e2, e3, e4, e5⟩ := idx_facts t
  have ht : t.val < 200 := lt_of_lt_of_eq t.isLt (show cfg1.N = 200 from N_1)
  funext j
  obtain ⟨p, q, rfl⟩ : ∃ (p : Fin 8000) (q : Fin 128), j = ix2 p q := ⟨j 0, j 1, eq_ix2 j⟩
  have hp : p.val < 8000 := p.isLt
  -- the row of the whole array that row `p` of block `t` is
  let P : Fin 1600000 := ⟨t.val * 8000 + p.val, by omega⟩
  show k1_pay1 (iblk1 V c 1 t) (iblk1 V c 0 t) (ix2 p q) = scaled V hb c (((cfg1.win 2).blk t).view.emb (ix2 p q))
  have hi : ((cfg1.win 2).blk t).view.emb (ix2 p q) = ix2 P q := by
    funext a; apply Fin.ext
    match a with
    | ⟨0, _⟩ => show win1_2.index t (0 : Fin 2) * 8000 + 1 * p.val = t.val * 8000 + p.val; omega
    | ⟨1, _⟩ => show win1_2.index t (1 : Fin 2) * 128 + 1 * q.val = q.val; omega
  rw [hi, scaled_apply]
  refine (pay_apply _ _ p q).trans ?_
  have h0 : iblk1 V c 0 t (ix2 p q) = harr V c (ix2 P q) := by
    show V c main_v37 (((cfg1.win 0).blk t).view.emb (ix2 p q)) = V c main_v37 (ix2 P q)
    refine congrArg _ (funext fun a => Fin.ext ?_)
    match a with
    | ⟨0, _⟩ => show win1_0.index t (0 : Fin 2) * 8000 + 1 * p.val = t.val * 8000 + p.val; omega
    | ⟨1, _⟩ => show win1_0.index t (1 : Fin 2) * 128 + 1 * q.val = q.val; omega
  have h1 : iblk1 V c 1 t (ix2 p (0 : Fin 1)) = narr V c (ix2 P (0 : Fin 1)) := by
    show V c main_v30 (((cfg1.win 1).blk t).view.emb (ix2 p (0 : Fin 1))) = V c main_v30 (ix2 P (0 : Fin 1))
    refine congrArg _ (funext fun a => Fin.ext ?_)
    match a with
    | ⟨0, _⟩ => show win1_1.index t (0 : Fin 2) * 8000 + 1 * p.val = t.val * 8000 + p.val; omega
    | ⟨1, _⟩ => show win1_1.index t (1 : Fin 2) * 1 + 1 * 0 = 0; omega
  rw [h0, h1]

/-- An index of the output array lies in point `t`'s block iff each coordinate lies in the block's range. -/
theorem mem_blk (t : Fin cfg1.N) (i : S1600000x128.Idx) :
    i ∈ ((cfg1.win 2).blk t).view.set ↔ ∀ a : Fin 2, win1_2.index t a * S8000x128.size a ≤ (i a).val ∧ (i a).val < win1_2.index t a * S8000x128.size a + S8000x128.size a := by
  show i ∈ ((View.whole main_v38).slice (win1_2.rect t)).set ↔ _
  rw [View.set_slice_whole, Rect.mem_set_unit]
  exact Iff.rfl

/-- The 200 row blocks tile the output: row `r` lies in the block of point `r / 8000`. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  let t : Fin cfg1.N := ⟨(i 0).val / 8000, by rw [show cfg1.N = 200 from N_1]; omega⟩
  obtain ⟨-, -, -, -, e4, e5⟩ := idx_facts t
  have e4' : win1_2.index t (0 : Fin 2) = (i 0).val / 8000 := e4
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- After the region the output array is the feature rows times the stretched weight column, as the region found them. -/
theorem final (hb : S1600000x1.BroadcastsInDim S1600000x128 (![0, 1] : Fin 2 → Fin S1600000x128.rank)) (c : Dev nD) :
    (dat1 V c).arrAt 2 cfg1.N = scaled V hb c :=
  (dat1 V c).arrAt_eq_of_cover 2 (scaled V hb c) (fun t _ => flushed_eq V hb c t) (cover)

end Cert.KernelIdeal.Region1

end
-- ==== Proof.Chain1.lean ====
import proofs.«174721_j31482110279899_1_alg».proof.Proof.Gen.KernelIdeal.Frame
import proofs.«174721_j31482110279899_1_alg».proof.Proof.Gen.ReferenceIdeal.Read
import proofs.«174721_j31482110279899_1_alg».proof.Proof.Region0
import proofs.«174721_j31482110279899_1_alg».proof.Proof.Region1
import proofs.«174721_j31482110279899_1_alg».proof.Proof.LibColumn
import Idealize.ShloMosaic.Lib.StableHlo.Run

/-!
  The idealized kernel program's buffers, boundary by boundary, as the reference's stages — first half of layer one.

  The reference program is read one operation at a time as stages `val_main_vN`, each a function of the argument arrays.
  The kernel program runs the same host operations in the same order, with a pallas_call where the reference has a
  `dot_general` (regions 0 and 2) or a stretched column and a product (regions 1 and 3). Here: from the launch to the
  exit of region 1. At each boundary the buffers later operations still read are identified with the reference's stages:
  the source and destination node ids, the product `x · W1` (region 0 against the reference's `dot_general`), the
  inverse square-root degrees, the gathered rows and the per-edge weights, and the scaled rows (region 1 against the
  reference's `broadcast_in_dim`s and product; the kernel makes the weight column by a reshape, the reference by a
  `broadcast_in_dim`, and the two columns are equal).
-/

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable (m : (ℓ : Loc nD τ sig) → Buf (Elt Ideal) ℓ) (ρ : Dev nD → PrngReg)
/-- The seven argument arrays at launch, on core `c`. -/
abbrev a0 (c : Dev nD) : (⟨S100000x128, .f32⟩ : BufTy).Contents (Elt Ideal) := m ((c : Thread nD τ).loc main_arg0)
abbrev a1 (c : Dev nD) : (⟨S2x1600000, .i32⟩ : BufTy).Contents (Elt Ideal) := m ((c : Thread nD τ).loc main_arg1)
abbrev a2 (c : Dev nD) : (⟨S1600000, .f32⟩ : BufTy).Contents (Elt Ideal) := m ((c : Thread nD τ).loc main_arg2)
abbrev a3 (c : Dev nD) : (⟨S128x128, .f32⟩ : BufTy).Contents (Elt Ideal) := m ((c : Thread nD τ).loc main_arg3)
abbrev a4 (c : Dev nD) : (⟨S128, .f32⟩ : BufTy).Contents (Elt Ideal) := m ((c : Thread nD τ).loc main_arg4)
abbrev a5 (c : Dev nD) : (⟨S128x64, .f32⟩ : BufTy).Contents (Elt Ideal) := m ((c : Thread nD τ).loc main_arg5)
abbrev a6 (c : Dev nD) : (⟨S64, .f32⟩ : BufTy).Contents (Elt Ideal) := m ((c : Thread nD τ).loc main_arg6)

/-! ## After the first host stretch (region 0's entry) -/

theorem W1_v1 (c : Dev nD) : W1 m ρ c (Proc.devRef .tc main_v1) = Cert.ReferenceIdeal.Read.val_main_v1 (a1 m c) := by
  show StableHlo.after hostOps0 (W0 m ρ c) (Proc.devRef .tc main_v1) = _
  after_results
  rfl
theorem W1_v3 (c : Dev nD) : W1 m ρ c (Proc.devRef .tc main_v3) = Cert.ReferenceIdeal.Read.val_main_v3 (a1 m c) := by
  show StableHlo.after hostOps0 (W0 m ρ c) (Proc.devRef .tc main_v3) = _
  after_results
  rfl
theorem W1_arg0 (c : Dev nD) : W1 m ρ c (Proc.devRef .tc main_arg0) = a0 m c := by
  show StableHlo.after hostOps0 (W0 m ρ c) (Proc.devRef .tc main_arg0) = _
  after_results
theorem W1_arg2 (c : Dev nD) : W1 m ρ c (Proc.devRef .tc main_arg2) = a2 m c := by
  show StableHlo.after hostOps0 (W0 m ρ c) (Proc.devRef .tc main_arg2) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_arg6 (c : Dev nD) : W1 m ρ c (Proc.devRef .tc main_arg6) = a6 m c := by
  show StableHlo.after hostOps0 (W0 m ρ c) (Proc.devRef .tc main_arg6) = _
  after_results

/-! ## At region 0's exit -/

/-- Region 0 leaves the product of the first two arguments: the reference's `dot_general`. -/
theorem W2_v4 (c : Dev nD) : W2 m ρ c (Proc.devRef .tc main_v4) = Cert.ReferenceIdeal.Read.val_main_v4 (a0 m c) (a3 m c) := by
  refine (W2_arr m ρ c 2).trans ((Cert.KernelIdeal.Region0.final (V1 m ρ) c).trans ?_)
  show Host.dotGeneral (F := Ideal) (DotDims.plain 100000 128 128) none (W1 m ρ c (Proc.devRef .tc main_arg0)) (W1 m ρ c (Proc.devRef .tc main_arg3)) = _
  rw [W1_arg0, W1_arg3]
  rfl
theorem W2_v1 (c : Dev nD) : W2 m ρ c (Proc.devRef .tc main_v1) = Cert.ReferenceIdeal.Read.val_main_v1 (a1 m c) :=
  (W2_of_ne m ρ c main_v1 (by decide)).trans (W1_v1 m ρ c)
theorem W2_v3 (c : Dev nD) : W2 m ρ c (Proc.devRef .tc main_v3) = Cert.ReferenceIdeal.Read.val_main_v3 (a1 m c) :=
  (W2_of_ne m ρ c main_v3 (by decide)).trans (W1_v3 m ρ c)
theorem W2_arg2 (c : Dev nD) : W2 m ρ c (Proc.devRef .tc main_arg2) = a2 m c :=
  (W2_of_ne m ρ c main_arg2 (by decide)).trans (W1_arg2 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

/-! ## After the next three host stretches (region 1's entry) -/

/-- The outlined `_where` call of layer one, over any contents of the buffers it reads: a select against a stretched
    scalar (the call's buffers are typed views of @main's, which fall away on variables). -/
theorem call0_v13 (X : Valuation τ sig (Elt Ideal)) :
    StableHlo.after hostOps1_1 X (Proc.devRef .tc main_v13)
      = (select (X (Proc.devRef .tc main_v11)) (X (Proc.devRef .tc main_v12))
          (broadcastInDim S100000 ![] bcast_S_S100000 (X (Proc.devRef .tc main_cst_2))) : (⟨S100000, .f32⟩ : BufTy).Contents (Elt Ideal)) := by
  after_results
  rfl

/-- The inverse square-root degrees, right after the call. -/
theorem W4_v13 (c : Dev nD) : W4 m ρ c (Proc.devRef .tc main_v13) = Cert.ReferenceIdeal.Read.val_main_v13 (a1 m c) (a2 m c) := by
  show StableHlo.after hostOps1_1 (W3 m ρ c) (Proc.devRef .tc main_v13) = _
  rw [call0_v13]
  after_results_simp
  rw [W2_v3, W2_arg2]
  rfl

/-- The inverse square-root degrees at region 1's entry: the last stretch does not write them. -/
theorem W5_v13 (c : Dev nD) : W5 m ρ c (Proc.devRef .tc main_v13) = Cert.ReferenceIdeal.Read.val_main_v13 (a1 m c) (a2 m c) := by
  show StableHlo.after hostOps1_2 (W4 m ρ c) (Proc.devRef .tc main_v13) = _
  generalize hX : W4 m ρ c = X
  after_results_simp
  subst hX
  exact W4_v13 m ρ c

set_option maxRecDepth 200000 in
/-- The per-edge weights, as a column. -/
theorem W5_v30 (c : Dev nD) : W5 m ρ c (Proc.devRef .tc main_v30)
    = shapeCast S1600000x1 (Cert.ReferenceIdeal.Read.val_main_v29 (a1 m c) (a2 m c)) shapeCasts_S1600000_S1600000x1 := by
  show StableHlo.after hostOps1_2 (W4 m ρ c) (Proc.devRef .tc main_v30) = _
  generalize hX : W4 m ρ c = X
  after_results_simp
  subst hX
  rw [W4_v13]
  after_results_simp
  rw [W2_v3, W2_v1, W2_arg2]
  rfl
set_option maxRecDepth 200000 in
/-- The product's rows gathered at the source nodes. -/
theorem W5_v37 (c : Dev nD) : W5 m ρ c (Proc.devRef .tc main_v37) = Cert.ReferenceIdeal.Read.val_main_v36 (a0 m c) (a1 m c) (a3 m c) := by
  show StableHlo.after hostOps1_2 (W4 m ρ c) (Proc.devRef .tc main_v37) = _
  after_results_simp
  rw [W2_v4, W2_v1]
  rfl
set_option maxRecDepth 200000 in
theorem W5_v1 (c : Dev nD) : W5 m ρ c (Proc.devRef .tc main_v1) = Cert.ReferenceIdeal.Read.val_main_v1 (a1 m c) := by
  show StableHlo.after hostOps1_2 (W4 m ρ c) (Proc.devRef .tc main_v1) = _
  after_results_simp
  exact W2_v1 m ρ c
set_option maxRecDepth 200000 in
theorem W5_v3 (c : Dev nD) : W5 m ρ c (Proc.devRef .tc main_v3) = Cert.ReferenceIdeal.Read.val_main_v3 (a1 m c) := by
  show StableHlo.after hostOps1_2 (W4 m ρ c) (Proc.devRef .tc main_v3) = _
  after_results_simp
  exact W2_v3 m ρ c
set_option maxRecDepth 200000 in
theorem W5_v4 (c : Dev nD) : W5 m ρ c (Proc.devRef .tc main_v4) = Cert.ReferenceIdeal.Read.val_main_v4 (a0 m c) (a3 m c) := by
  show StableHlo.after hostOps1_2 (W4 m ρ c) (Proc.devRef .tc main_v4) = _
  after_results_simp
  exact W2_v4 m ρ c
set_option maxRecDepth 200000 in
theorem W5_arg2 (c : Dev nD) : W5 m ρ c (Proc.devRef .tc main_arg2) = a2 m c := by
  show StableHlo.after hostOps1_2 (W4 m ρ c) (Proc.devRef .tc main_arg2) = _
  after_results_simp
  exact W2_arg2 m ρ c
set_option maxRecDepth 200000 in
theorem W5_arg4 (c : Dev nD) : W5 m ρ c (Proc.devRef .tc main_arg4) = a4 m c := by
  show StableHlo.after hostOps1_2 (W4 m ρ c) (Proc.devRef .tc main_arg4) = _
  after_results_simp
  exact W2_arg4 m ρ c
set_option maxRecDepth 200000 in
theorem W5_arg5 (c : Dev nD) : W5 m ρ c (Proc.devRef .tc main_arg5) = a5 m c := by
  show StableHlo.after hostOps1_2 (W4 m ρ c) (Proc.devRef .tc main_arg5) = _
  after_results_simp
  exact W2_arg5 m ρ c
set_option maxRecDepth 200000 in
theorem W5_arg6 (c : Dev nD) : W5 m ρ c (Proc.devRef .tc main_arg6) = a6 m c := by
  show StableHlo.after hostOps1_2 (W4 m ρ c) (Proc.devRef .tc main_arg6) = _
  after_results_simp
  exact W2_arg6 m ρ c

/-! ## At region 1's exit -/

/-- Region 1 leaves the gathered rows scaled by the edge weights: the reference's product with the stretched column. -/
theorem W6_v38 (c : Dev nD) : W6 m ρ c (Proc.devRef .tc main_v38) = Cert.ReferenceIdeal.Read.val_main_v39 (a0 m c) (a1 m c) (a2 m c) (a3 m c) := by
  refine (W6_arr m ρ c 2).trans ((Cert.KernelIdeal.Region1.final (V5 m ρ) Cert.ReferenceIdeal.Facts₀.bcast_S1600000x1_S1600000x128_0_1 c).trans ?_)
  have e1 : Cert.KernelIdeal.Region1.harr (V5 m ρ) c = Cert.ReferenceIdeal.Read.val_main_v36 (a0 m c) (a1 m c) (a3 m c) := W5_v37 m ρ c
  have e2 : Cert.KernelIdeal.Region1.narr (V5 m ρ) c
      = shapeCast S1600000x1 (Cert.ReferenceIdeal.Read.val_main_v29 (a1 m c) (a2 m c)) shapeCasts_S1600000_S1600000x1 := W5_v30 m ρ c
  show mulf (Cert.KernelIdeal.Region1.harr (V5 m ρ) c) (broadcastInDim S1600000x128 ![0, 1]
    Cert.ReferenceIdeal.Facts₀.bcast_S1600000x1_S1600000x128_0_1 (Cert.KernelIdeal.Region1.narr (V5 m ρ) c)) = _
  rw [e1, e2, Cert.Lib.Column.reshape_col_eq_broadcastInDim _ _ Cert.ReferenceIdeal.Facts₀.bcast_S1600000_S1600000x1_0]
  rfl
theorem W6_v1 (c : Dev nD) : W6 m ρ c (Proc.devRef .tc main_v1) = Cert.ReferenceIdeal.Read.val_main_v1 (a1 m c) :=
  (W6_of_ne m ρ c main_v1 (by decide)).trans (W5_v1 m ρ c)
theorem W6_v3 (c : Dev nD) : W6 m ρ c (Proc.devRef .tc main_v3) = Cert.ReferenceIdeal.Read.val_main_v3 (a1 m c) :=
  (W6_of_ne m ρ c main_v3 (by decide)).trans (W5_v3 m ρ c)
theorem W6_v4 (c : Dev nD) : W6 m ρ c (Proc.devRef .tc main_v4) = Cert.ReferenceIdeal.Read.val_main_v4 (a0 m c) (a3 m c) :=
  (W6_of_ne m ρ c main_v4 (by decide)).trans (W5_v4 m ρ c)
theorem W6_v13 (c : Dev nD) : W6 m ρ c (Proc.devRef .tc main_v13) = Cert.ReferenceIdeal.Read.val_main_v13 (a1 m c) (a2 m c) :=
  (W6_of_ne m ρ c main_v13 (by decide)).trans (W5_v13 m ρ c)
theorem W6_arg2 (c : Dev nD) : W6 m ρ c (Proc.devRef .tc main_arg2) = a2 m c :=
  (W6_of_ne m ρ c main_arg2 (by decide)).trans (W5_arg2 m ρ c)
theorem W6_arg4 (c : Dev nD) : W6 m ρ c (Proc.devRef .tc main_arg4) = a4 m c :=
  (W6_of_ne m ρ c main_arg4 (by decide)).trans (W5_arg4 m ρ c)
theorem W6_arg5 (c : Dev nD) : W6 m ρ c (Proc.devRef .tc main_arg5) = a5 m c :=
  (W6_of_ne m ρ c main_arg5 (by decide)).trans (W5_arg5 m ρ c)
theorem W6_arg6 (c : Dev nD) : W6 m ρ c (Proc.devRef .tc main_arg6) = a6 m c :=
  (W6_of_ne m ρ c main_arg6 (by decide)).trans (W5_arg6 m ρ c)

end Cert.Bridge

end
-- ==== Proof.Region2.lean ====
import proofs.«174721_j31482110279899_1_alg».proof.Proof.Gen.KernelIdeal.Frame
import proofs.«174721_j31482110279899_1_alg».proof.Proof.LibPlainDot
import Idealize.ShloMosaic.Lib.Pipeline.Value
import Idealize.ShloMosaic.Lib.ValueIdx
import Idealize.ShloMosaic.PureOps.Ideal.Laws

/-!
  The third pallas_call, read as a value over the extended reals.

  The grid has 50 points; point `t` multiplies rows `2000 t … 2000 t + 1999` of the left array (all 128 columns) by the
  whole 128×64 right array and writes the 2000×64 product to the same rows of the output. The two operands are narrowed
  to bf16 first, which is the identity on extended reals, and the product is accumulated onto zero, so entry `(p, q)` of
  a block is `∑ k, x (p, k) * w (k, q)`. The 50 row blocks tile the output, so after the region the output array is the
  plain matrix product of the two arrays as the region found them.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's product at an entry: the sum over the 128 contraction positions. -/
theorem pay_apply (x0 : Vec Ideal S2000x128 .f32) (x1 : Vec Ideal S128x64 .f32) (p : Fin 2000) (q : Fin 64) :
    k2_pay1 x0 x1 (ix2 p q) = ∑ k : Fin 128, x0 (ix2 p k) * x1 (ix2 k q) := by
  unfold k2_pay1
  simp only [shapeCast_self]
  exact Cert.Lib.PlainDot.matmul_zero_apply (M := 2000) (K := 128) (N := 64) none
    (truncf .bf16 x0 bitsLt_bf16_f32) (truncf .bf16 x1 bitsLt_bf16_f32) p q

/-- The left array as the region finds it. -/
abbrev xarr (c : Dev nD) : FVec Ideal S100000x128 .f32 := V c main_v50
/-- The right array as the region finds it. -/
abbrev warr (c : Dev nD) : FVec Ideal S128x64 .f32 := V c main_arg5

/-- The plain product of the two arrays the region reads, as the region finds them. -/
abbrev prod (c : Dev nD) : FVec Ideal S100000x64 .f32 :=
  Host.dotGeneral (F := Ideal) (DotDims.plain 100000 128 64) none (xarr V c) (warr V c)

/-- The whole product at an entry. -/
theorem prod_apply (c : Dev nD) (p : Fin 100000) (q : Fin 64) :
    prod V c (ix2 p q) = ∑ k : Fin 128, xarr V c (ix2 p k) * warr V c (ix2 k q) :=
  Cert.Lib.PlainDot.dotGeneral_apply (M := 100000) (K := 128) (N := 64) none _ (xarr V c) (warr V c) p q

/-- The printed index maps over the grid: the left operand's and the output's block move down one block of rows per
    point; the right operand's block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨e0, e1, e2, e3, e4, e5⟩ := idx_facts t
  have ht : t.val < 50 := lt_of_lt_of_eq t.isLt (show cfg2.N = 50 from N_2)
  funext j
  obtain ⟨p, q, rfl⟩ : ∃ (p : Fin 2000) (q : Fin 64), j = ix2 p q := ⟨j 0, j 1, eq_ix2 j⟩
  have hp : p.val < 2000 := p.isLt
  -- the row of the whole array that row `p` of block `t` is
  let P : Fin 100000 := ⟨t.val * 2000 + p.val, by omega⟩
  show k2_pay1 (iblk2 V c 0 t) (iblk2 V c 1 t) (ix2 p q) = prod V c (((cfg2.win 2).blk t).view.emb (ix2 p q))
  have hi : ((cfg2.win 2).blk t).view.emb (ix2 p q) = ix2 P q := by
    funext a; apply Fin.ext
    match a with
    | ⟨0, _⟩ => show win2_2.index t (0 : Fin 2) * 2000 + 1 * p.val = t.val * 2000 + p.val; omega
    | ⟨1, _⟩ => show win2_2.index t (1 : Fin 2) * 64 + 1 * q.val = q.val; omega
  rw [hi, prod_apply]
  refine (pay_apply _ _ p q).trans (Finset.sum_congr rfl fun k _ => ?_)
  have h0 : iblk2 V c 0 t (ix2 p k) = xarr V c (ix2 P k) := by
    show V c main_v50 (((cfg2.win 0).blk t).view.emb (ix2 p k)) = V c main_v50 (ix2 P k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : iblk2 V c 1 t (ix2 k q) = warr V c (ix2 k q) := by
    show V c main_arg5 (((cfg2.win 1).blk t).view.emb (ix2 k q)) = V c main_arg5 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  rw [h0, h1]

/-- An index of the output array lies in point `t`'s block iff each coordinate lies in the block's range. -/
theorem mem_blk (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v51).slice (win2_2.rect t)).set ↔ _
  rw [View.set_slice_whole, Rect.mem_set_unit]
  exact Iff.rfl

/-- The 50 row blocks tile the output: row `r` lies in the block of point `r / 2000`. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  let t : Fin cfg2.N := ⟨(i 0).val / 2000, by rw [show cfg2.N = 50 from N_2]; omega⟩
  obtain ⟨-, -, -, -, e4, e5⟩ := idx_facts t
  have e4' : win2_2.index t (0 : Fin 2) = (i 0).val / 2000 := e4
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- After the region the output array is the plain product of the two arrays as the region found them. -/
theorem final (c : Dev nD) : (dat2 V c).arrAt 2 cfg2.N = prod V c :=
  (dat2 V c).arrAt_eq_of_cover 2 (prod V c) (fun t _ => flushed_eq V c t) (cover)

end Cert.KernelIdeal.Region2

end
-- ==== Proof.Chain2.lean ====
import proofs.«174721_j31482110279899_1_alg».proof.Proof.Chain1
import proofs.«174721_j31482110279899_1_alg».proof.Proof.Region2

/-!
  The idealized kernel program's buffers as the reference's stages — the rest of layer one and the second product.

  From region 1's exit to region 2's exit: the scatter-add of the scaled rows at the destination nodes, the self-loop
  term, the bias and the `relu` are the reference's operations on equal operands; region 2 leaves the product of that
  activation with the second weight matrix, which is the reference's second `dot_general`.
-/

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable (m : (ℓ : Loc nD τ sig) → Buf (Elt Ideal) ℓ) (ρ : Dev nD → PrngReg)

/-! ## After the two host stretches that follow region 1 (region 2's entry) -/

/-- The outlined `relu` call, over any contents of the buffer it reads: the maximum with a stretched zero. -/
theorem call1_v50 (X : Valuation τ sig (Elt Ideal)) :
    StableHlo.after hostOps2_1 X (Proc.devRef .tc main_v50)
      = (maximumf (X (Proc.devRef .tc main_v49))
          (broadcastInDim S100000x128 ![] bcast_S_S100000x128 (constant (F := Ideal) S_ .f32 0x00000000#32)) : (⟨S100000x128, .f32⟩ : BufTy).Contents (Elt Ideal)) := by
  after_results
  rfl

set_option maxRecDepth 200000 in
/-- The first layer's activation. -/
theorem W8_v50 (c : Dev nD) : W8 m ρ c (Proc.devRef .tc main_v50) = Cert.ReferenceIdeal.Read.val_main_v51 (a0 m c) (a1 m c) (a2 m c) (a3 m c) (a4 m c) := by
  show StableHlo.after hostOps2_1 (W7 m ρ c) (Proc.devRef .tc main_v50) = _
  rw [call1_v50]
  after_results_simp
  rw [W6_v38, W6_v3, W6_v13, W6_v4, W6_arg4]
  rfl
set_option maxRecDepth 200000 in
theorem W8_v1 (c : Dev nD) : W8 m ρ c (Proc.devRef .tc main_v1) = Cert.ReferenceIdeal.Read.val_main_v1 (a1 m c) := by
  show StableHlo.after hostOps2_1 (W7 m ρ c) (Proc.devRef .tc main_v1) = _
  after_results_simp
  exact W6_v1 m ρ c
set_option maxRecDepth 200000 in
theorem W8_v3 (c : Dev nD) : W8 m ρ c (Proc.devRef .tc main_v3) = Cert.ReferenceIdeal.Read.val_main_v3 (a1 m c) := by
  show StableHlo.after hostOps2_1 (W7 m ρ c) (Proc.devRef .tc main_v3) = _
  after_results_simp
  exact W6_v3 m ρ c
set_option maxRecDepth 200000 in
theorem W8_arg2 (c : Dev nD) : W8 m ρ c (Proc.devRef .tc main_arg2) = a2 m c := by
  show StableHlo.after hostOps2_1 (W7 m ρ c) (Proc.devRef .tc main_arg2) = _
  after_results_simp
  exact W6_arg2 m ρ c
set_option maxRecDepth 200000 in
theorem W8_arg5 (c : Dev nD) : W8 m ρ c (Proc.devRef .tc main_arg5) = a5 m c := by
  show StableHlo.after hostOps2_1 (W7 m ρ c) (Proc.devRef .tc main_arg5) = _
  after_results_simp
  exact W6_arg5 m ρ c
set_option maxRecDepth 200000 in
theorem W8_arg6 (c : Dev nD) : W8 m ρ c (Proc.devRef .tc main_arg6) = a6 m c := by
  show StableHlo.after hostOps2_1 (W7 m ρ c) (Proc.devRef .tc main_arg6) = _
  after_results_simp
  exact W6_arg6 m ρ c

/-! ## At region 2's exit -/

/-- Region 2 leaves the product of the activation with the second weight matrix: the reference's `dot_general`. -/
theorem W9_v51 (c : Dev nD) : W9 m ρ c (Proc.devRef .tc main_v51) = Cert.ReferenceIdeal.Read.val_main_v52 (a0 m c) (a1 m c) (a2 m c) (a3 m c) (a4 m c) (a5 m c) := by
  refine (W9_arr m ρ c 2).trans ((Cert.KernelIdeal.Region2.final (V8 m ρ) c).trans ?_)
  show Host.dotGeneral (F := Ideal) (DotDims.plain 100000 128 64) none (W8 m ρ c (Proc.devRef .tc main_v50)) (W8 m ρ c (Proc.devRef .tc main_arg5)) = _
  rw [W8_v50, W8_arg5]
  rfl
theorem W9_v1 (c : Dev nD) : W9 m ρ c (Proc.devRef .tc main_v1) = Cert.ReferenceIdeal.Read.val_main_v1 (a1 m c) :=
  (W9_of_ne m ρ c main_v1 (by decide)).trans (W8_v1 m ρ c)
theorem W9_v3 (c : Dev nD) : W9 m ρ c (Proc.devRef .tc main_v3) = Cert.ReferenceIdeal.Read.val_main_v3 (a1 m c) :=
  (W9_of_ne m ρ c main_v3 (by decide)).trans (W8_v3 m ρ c)
theorem W9_arg2 (c : Dev nD) : W9 m ρ c (Proc.devRef .tc main_arg2) = a2 m c :=
  (W9_of_ne m ρ c main_arg2 (by decide)).trans (W8_arg2 m ρ c)
theorem W9_arg6 (c : Dev nD) : W9 m ρ c (Proc.devRef .tc main_arg6) = a6 m c :=
  (W9_of_ne m ρ c main_arg6 (by decide)).trans (W8_arg6 m ρ c)

end Cert.Bridge

end
-- ==== Proof.Region3.lean ====
import proofs.«174721_j31482110279899_1_alg».proof.Proof.Gen.KernelIdeal.Frame
import proofs.«174721_j31482110279899_1_alg».proof.Proof.LibColumn
import Idealize.ShloMosaic.Lib.Pipeline.Value
import Idealize.ShloMosaic.Lib.ValueIdx

/-!
  The second edge-scaling pallas_call, read as a value over the extended reals.

  The grid has 200 points; point `t` takes rows `8000 t … 8000 t + 7999` of the gathered feature rows (64 columns) and
  of the per-edge weight column, stretches the column across the 64 columns, multiplies entry by entry and writes the
  block to the same rows of the output. The 200 row blocks tile the output, so after the region the output array is the
  gathered rows times the weight column stretched across the columns, the arrays taken as the region found them: the
  same array the host computes with a `broadcast_in_dim` and a product.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- One block's entry: the feature entry times the weight of its row. -/
theorem pay_apply (v0 : Vec Ideal S8000x1 .f32) (v4 : Vec Ideal S8000x64 .f32) (p : Fin 8000) (q : Fin 64) :
    k3_pay1 v0 v4 (ix2 p q) = v4 (ix2 p q) * v0 (ix2 p (0 : Fin 1)) := by
  unfold k3_pay1
  simp only [shapeCast_self]
  exact congrArg (v4 (ix2 p q) * ·) (Cert.Lib.Column.broadcastTo_col_apply v0 broadcasts_S8000x1_S8000x64 p q)

/-- The gathered feature rows as the region finds them. -/
abbrev harr (c : Dev nD) : FVec Ideal S1600000x64 .f32 := V c main_v84
/-- The per-edge weight column as the region finds it. -/
abbrev narr (c : Dev nD) : FVec Ideal S1600000x1 .f32 := V c main_v77

/-- The feature rows times the weight column stretched across the columns. -/
abbrev scaled (hb : S1600000x1.BroadcastsInDim S1600000x64 (![0, 1] : Fin 2 → Fin S1600000x64.rank)) (c : Dev nD) :
    FVec Ideal S1600000x64 .f32 :=
  mulf (harr V c) (broadcastInDim S1600000x64 ![0, 1] hb (narr V c))

/-- That array at an entry. -/
theorem scaled_apply (hb : S1600000x1.BroadcastsInDim S1600000x64 (![0, 1] : Fin 2 → Fin S1600000x64.rank)) (c : Dev nD)
    (p : Fin 1600000) (q : Fin 64) :
    scaled V hb c (ix2 p q) = harr V c (ix2 p q) * narr V c (ix2 p (0 : Fin 1)) :=
  congrArg (harr V c (ix2 p q) * ·) (Cert.Lib.Column.broadcastInDim_col_apply (narr V c) hb p q)

/-- The printed index maps over the grid: every window's block moves down one block of rows per point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the scaled rows. -/
theorem flushed_eq (hb : S1600000x1.BroadcastsInDim S1600000x64 (![0, 1] : Fin 2 → Fin S1600000x64.rank)) (c : Dev nD)
    (t : Fin cfg3.N) :
    (dat3 V c).flushed 2 t = ((cfg3.win 2).blk t).view.read (Elt Ideal) (scaled V hb c) := by
  show (cfg3.win 2).cut (grid3.coords t) ((dat3 V c).after 2 t) = _
  rw [after3_2]
  unfold out3_2
  rw [View.canon_unit_zero hz]
  simp only [View.ld_unit_zero (S := S8000x64) hz, View.ld_unit_zero (S := S8000x1) hz]
  obtain ⟨e0, e1, e2, e3, e4, e5⟩ := idx_facts t
  have ht : t.val < 200 := lt_of_lt_of_eq t.isLt (show cfg3.N = 200 from N_3)
  funext j
  obtain ⟨p, q, rfl⟩ : ∃ (p : Fin 8000) (q : Fin 64), j = ix2 p q := ⟨j 0, j 1, eq_ix2 j⟩
  have hp : p.val < 8000 := p.isLt
  -- the row of the whole array that row `p` of block `t` is
  let P : Fin 1600000 := ⟨t.val * 8000 + p.val, by omega⟩
  show k3_pay1 (iblk3 V c 1 t) (iblk3 V c 0 t) (ix2 p q) = scaled V hb c (((cfg3.win 2).blk t).view.emb (ix2 p q))
  have hi : ((cfg3.win 2).blk t).view.emb (ix2 p q) = ix2 P q := by
    funext a; apply Fin.ext
    match a with
    | ⟨0, _⟩ => show win3_2.index t (0 : Fin 2) * 8000 + 1 * p.val = t.val * 8000 + p.val; omega
    | ⟨1, _⟩ => show win3_2.index t (1 : Fin 2) * 64 + 1 * q.val = q.val; omega
  rw [hi, scaled_apply]
  refine (pay_apply _ _ p q).trans ?_
  have h0 : iblk3 V c 0 t (ix2 p q) = harr V c (ix2 P q) := by
    show V c main_v84 (((cfg3.win 0).blk t).view.emb (ix2 p q)) = V c main_v84 (ix2 P q)
    refine congrArg _ (funext fun a => Fin.ext ?_)
    match a with
    | ⟨0, _⟩ => show win3_0.index t (0 : Fin 2) * 8000 + 1 * p.val = t.val * 8000 + p.val; omega
    | ⟨1, _⟩ => show win3_0.index t (1 : Fin 2) * 64 + 1 * q.val = q.val; omega
  have h1 : iblk3 V c 1 t (ix2 p (0 : Fin 1)) = narr V c (ix2 P (0 : Fin 1)) := by
    show V c main_v77 (((cfg3.win 1).blk t).view.emb (ix2 p (0 : Fin 1))) = V c main_v77 (ix2 P (0 : Fin 1))
    refine congrArg _ (funext fun a => Fin.ext ?_)
    match a with
    | ⟨0, _⟩ => show win3_1.index t (0 : Fin 2) * 8000 + 1 * p.val = t.val * 8000 + p.val; omega
    | ⟨1, _⟩ => show win3_1.index t (1 : Fin 2) * 1 + 1 * 0 = 0; omega
  rw [h0, h1]

/-- An index of the output array lies in point `t`'s block iff each coordinate lies in the block's range. -/
theorem mem_blk (t : Fin cfg3.N) (i : S1600000x64.Idx) :
    i ∈ ((cfg3.win 2).blk t).view.set ↔ ∀ a : Fin 2, win3_2.index t a * S8000x64.size a ≤ (i a).val ∧ (i a).val < win3_2.index t a * S8000x64.size a + S8000x64.size a := by
  show i ∈ ((View.whole main_v85).slice (win3_2.rect t)).set ↔ _
  rw [View.set_slice_whole, Rect.mem_set_unit]
  exact Iff.rfl

/-- The 200 row blocks tile the output: row `r` lies in the block of point `r / 8000`. -/
theorem cover (i : S1600000x64.Idx) :
    ∃ t : Fin cfg3.N, (cfg3.win 2).flush t = true ∧ i ∈ ((cfg3.win 2).blk t).view.set := by
  have hi0 : (i 0).val < 1600000 := (i 0).isLt
  have hi1 : (i 1).val < 64 := (i 1).isLt
  let t : Fin cfg3.N := ⟨(i 0).val / 8000, by rw [show cfg3.N = 200 from N_3]; omega⟩
  obtain ⟨-, -, -, -, e4, e5⟩ := idx_facts t
  have e4' : win3_2.index t (0 : Fin 2) = (i 0).val / 8000 := e4
  refine ⟨t, flush3_2 t, ?_⟩
  rw [mem_blk]
  intro a
  match a with
  | ⟨0, _⟩ => show win3_2.index t (0 : Fin 2) * 8000 ≤ (i 0).val ∧ (i 0).val < win3_2.index t (0 : Fin 2) * 8000 + 8000; omega
  | ⟨1, _⟩ => show win3_2.index t (1 : Fin 2) * 64 ≤ (i 1).val ∧ (i 1).val < win3_2.index t (1 : Fin 2) * 64 + 64; omega

/-- After the region the output array is the feature rows times the stretched weight column, as the region found them. -/
theorem final (hb : S1600000x1.BroadcastsInDim S1600000x64 (![0, 1] : Fin 2 → Fin S1600000x64.rank)) (c : Dev nD) :
    (dat3 V c).arrAt 2 cfg3.N = scaled V hb c :=
  (dat3 V c).arrAt_eq_of_cover 2 (scaled V hb c) (fun t _ => flushed_eq V hb c t) (cover)

end Cert.KernelIdeal.Region3

end
-- ==== Proof.Chain3.lean ====
import proofs.«174721_j31482110279899_1_alg».proof.Proof.Chain2
import proofs.«174721_j31482110279899_1_alg».proof.Proof.Region3

/-!
  The idealized kernel program's buffers as the reference's stages — layer two, to the returned array.

  From region 2's exit to the return: the second layer recomputes the degrees and the per-edge weights from the same
  arguments, gathers the second product's rows, scales them in region 3 (the reference's stretched column and product),
  scatter-adds them, adds the self-loop term and the bias. The array the kernel program returns is the reference's last
  stage of the argument arrays.
-/

set_option maxRecDepth 16384

noncomputable section

open Idealize.ShloMosaic Idealize.ShloMosaic.TcCoe Idealize.SL.Sem Idealize.ShloMosaic.StableHlo

namespace Cert.Bridge

open Cert.KernelIdeal Cert.KernelIdeal.Gen

variable (m : (ℓ : Loc nD τ sig) → Buf (Elt Ideal) ℓ) (ρ : Dev nD → PrngReg)

/-! ## After the three host stretches that follow region 2 (region 3's entry) -/

/-- The outlined `_where` call of layer two, over any contents of the buffers it reads. -/
theorem call2_v60 (X : Valuation τ sig (Elt Ideal)) :
    StableHlo.after hostOps3_1 X (Proc.devRef .tc main_v60)
      = (select (X (Proc.devRef .tc main_v58)) (X (Proc.devRef .tc main_v59))
          (broadcastInDim S100000 ![] bcast_S_S100000 (X (Proc.devRef .tc main_cst_12))) : (⟨S100000, .f32⟩ : BufTy).Contents (Elt Ideal)) := by
  after_results
  rfl

/-- The inverse square-root degrees, computed again, right after the call. -/
theorem W11_v60 (c : Dev nD) : W11 m ρ c (Proc.devRef .tc main_v60) = Cert.ReferenceIdeal.Read.val_main_v61 (a1 m c) (a2 m c) := by
  show StableHlo.after hostOps3_1 (W10 m ρ c) (Proc.devRef .tc main_v60) = _
  rw [call2_v60]
  after_results_simp
  rw [W9_v3, W9_arg2]
  rfl

/-- The same at region 3's entry: the last stretch does not write them. -/
theorem W12_v60 (c : Dev nD) : W12 m ρ c (Proc.devRef .tc main_v60) = Cert.ReferenceIdeal.Read.val_main_v61 (a1 m c) (a2 m c) := by
  show StableHlo.after hostOps3_2 (W11 m ρ c) (Proc.devRef .tc main_v60) = _
  generalize hX : W11 m ρ c = X
  after_results_simp
  subst hX
  exact W11_v60 m ρ c

set_option maxRecDepth 200000 in
/-- The per-edge weights, as a column. -/
theorem W12_v77 (c : Dev nD) : W12 m ρ c (Proc.devRef .tc main_v77)
    = shapeCast S1600000x1 (Cert.ReferenceIdeal.Read.val_main_v77 (a1 m c) (a2 m c)) shapeCasts_S1600000_S1600000x1 := by
  show StableHlo.after hostOps3_2 (W11 m ρ c) (Proc.devRef .tc main_v77) = _
  generalize hX : W11 m ρ c = X
  after_results_simp
  subst hX
  rw [W11_v60]
  after_results_simp
  rw [W9_v3, W9_v1, W9_arg2]
  rfl
set_option maxRecDepth 200000 in
/-- The second product's rows gathered at the source nodes. -/
theorem W12_v84 (c : Dev nD) : W12 m ρ c (Proc.devRef .tc main_v84) = Cert.ReferenceIdeal.Read.val_main_v84 (a0 m c) (a1 m c) (a2 m c) (a3 m c) (a4 m c) (a5 m c) := by
  show StableHlo.after hostOps3_2 (W11 m ρ c) (Proc.devRef .tc main_v84) = _
  after_results_simp
  rw [W9_v51, W9_v1]
  rfl
set_option maxRecDepth 200000 in
theorem W12_v3 (c : Dev nD) : W12 m ρ c (Proc.devRef .tc main_v3) = Cert.ReferenceIdeal.Read.val_main_v3 (a1 m c) := by
  show StableHlo.after hostOps3_2 (W11 m ρ c) (Proc.devRef .tc main_v3) = _
  after_results_simp
  exact W9_v3 m ρ c
set_option maxRecDepth 200000 in
theorem W12_v51 (c : Dev nD) : W12 m ρ c (Proc.devRef .tc main_v51) = Cert.ReferenceIdeal.Read.val_main_v52 (a0 m c) (a1 m c) (a2 m c) (a3 m c) (a4 m c) (a5 m c) := by
  show StableHlo.after hostOps3_2 (W11 m ρ c) (Proc.devRef .tc main_v51) = _
  after_results_simp
  exact W9_v51 m ρ c
set_option maxRecDepth 200000 in
theorem W12_arg6 (c : Dev nD) : W12 m ρ c (Proc.devRef .tc main_arg6) = a6 m c := by
  show StableHlo.after hostOps3_2 (W11 m ρ c) (Proc.devRef .tc main_arg6) = _
  after_results_simp
  exact W9_arg6 m ρ c

/-! ## At region 3's exit -/

/-- Region 3 leaves the gathered rows scaled by the edge weights: the reference's product with the stretched column. -/
theorem W13_v85 (c : Dev nD) : W13 m ρ c (Proc.devRef .tc main_v85) = Cert.ReferenceIdeal.Read.val_main_v87 (a0 m c) (a1 m c) (a2 m c) (a3 m c) (a4 m c) (a5 m c) := by
  refine (W13_arr m ρ c 2).trans ((Cert.KernelIdeal.Region3.final (V12 m ρ) Cert.ReferenceIdeal.Facts₀.bcast_S1600000x1_S1600000x64_0_1 c).trans ?_)
  have e1 : Cert.KernelIdeal.Region3.harr (V12 m ρ) c = Cert.ReferenceIdeal.Read.val_main_v84 (a0 m c) (a1 m c) (a2 m c) (a3 m c) (a4 m c) (a5 m c) := W12_v84 m ρ c
  have e2 : Cert.KernelIdeal.Region3.narr (V12 m ρ) c
      = shapeCast S1600000x1 (Cert.ReferenceIdeal.Read.val_main_v77 (a1 m c) (a2 m c)) shapeCasts_S1600000_S1600000x1 := W12_v77 m ρ c
  show mulf (Cert.KernelIdeal.Region3.harr (V12 m ρ) c) (broadcastInDim S1600000x64 ![0, 1]
    Cert.ReferenceIdeal.Facts₀.bcast_S1600000x1_S1600000x64_0_1 (Cert.KernelIdeal.Region3.narr (V12 m ρ) c)) = _
  rw [e1, e2, Cert.Lib.Column.reshape_col_eq_broadcastInDim _ _ Cert.ReferenceIdeal.Facts₀.bcast_S1600000_S1600000x1_0]
  rfl
theorem W13_v3 (c : Dev nD) : W13 m ρ c (Proc.devRef .tc main_v3) = Cert.ReferenceIdeal.Read.val_main_v3 (a1 m c) :=
  (W13_of_ne m ρ c main_v3 (by decide)).trans (W12_v3 m ρ c)
theorem W13_v60 (c : Dev nD) : W13 m ρ c (Proc.devRef .tc main_v60) = Cert.ReferenceIdeal.Read.val_main_v61 (a1 m c) (a2 m c) :=
  (W13_of_ne m ρ c main_v60 (by decide)).trans (W12_v60 m ρ c)
theorem W13_v51 (c : Dev nD) : W13 m ρ c (Proc.devRef .tc main_v51) = Cert.ReferenceIdeal.Read.val_main_v52 (a0 m c) (a1 m c) (a2 m c) (a3 m c) (a4 m c) (a5 m c) :=
  (W13_of_ne m ρ c main_v51 (by decide)).trans (W12_v51 m ρ c)
theorem W13_arg6 (c : Dev nD) : W13 m ρ c (Proc.devRef .tc main_arg6) = a6 m c :=
  (W13_of_ne m ρ c main_arg6 (by decide)).trans (W12_arg6 m ρ c)

/-! ## At the return -/

set_option maxRecDepth 200000 in
/-- The returned array is the reference's last stage of the argument arrays. -/
theorem W14_v96 (c : Dev nD) : W14 m ρ c (Proc.devRef .tc main_v96) = Cert.ReferenceIdeal.Read.val_main_v98 (a0 m c) (a1 m c) (a2 m c) (a3 m c) (a4 m c) (a5 m c) (a6 m c) := by
  show StableHlo.after hostOps4 (W13 m ρ c) (Proc.devRef .tc main_v96) = _
  after_results_simp
  rw [W13_v85, W13_v3, W13_v60, W13_v51, W13_arg6]
  rfl

end Cert.Bridge

end
-- ==== Proof.lean ====
/-
  The graph-convolution kernel against its jnp reference, over the extended reals.

  Both programs compute two rounds of `D^(-1/2) (A + I) D^(-1/2) (h W) + b` on the same edge list, with a `relu` between
  them, and they run the same host operations in the same order. The kernel program differs in four places. Each
  product `h W` is a pallas_call over blocks of 2000 rows that narrows both operands to bf16 and accumulates onto zero:
  over the extended reals the narrowing is the identity, so a block entry is the sum over the 128 contraction positions,
  the blocks tile the output, and the output is the reference's `dot_general`. Each per-edge scaling of the gathered rows
  is a pallas_call over blocks of 8000 edges that stretches the weight column across the feature columns and multiplies:
  the blocks tile the output and the output is the reference's product with its `broadcast_in_dim` of the same weights
  (the kernel program makes the column by a reshape, the reference by a `broadcast_in_dim`: the same column). No step
  uses finiteness of the inputs: sums on the extended reals may be reordered freely and nothing is distributed or
  cancelled.

  The frames of the two kernel programs are the generated ones; the reference's frame is its generated run. The
  idealization rewrote nothing, so there is nothing to preserve. For the value claim the kernel program's run is read
  with its result array named as the last segment boundary's contents; those contents are followed boundary by boundary
  (host stretches by evaluation, regions by their block lemmas) and identified with the reference's stages of the
  argument arrays, the last of which is the reference run's result.
-/
import proofs.«174721_j31482110279899_1_alg».proof.Defs
import proofs.«174721_j31482110279899_1_alg».proof.Proof.Gen.Kernel
import proofs.«174721_j31482110279899_1_alg».proof.Proof.Gen.Kernel.Skeleton
import proofs.«174721_j31482110279899_1_alg».proof.Proof.Gen.Kernel.Launch
import proofs.«174721_j31482110279899_1_alg».proof.Proof.Gen.Kernel.Points
import proofs.«174721_j31482110279899_1_alg».proof.Proof.Gen.Kernel.Frame
import proofs.«174721_j31482110279899_1_alg».proof.Proof.Gen.KernelIdeal
import proofs.«174721_j31482110279899_1_alg».proof.Proof.Gen.KernelIdeal.Skeleton
import proofs.«174721_j31482110279899_1_alg».proof.Proof.Gen.KernelIdeal.Launch
import proofs.«174721_j31482110279899_1_alg».proof.Proof.Gen.KernelIdeal.Points
import proofs.«174721_j31482110279899_1_alg».proof.Proof.Gen.KernelIdeal.Frame
import proofs.«174721_j31482110279899_1_alg».proof.Proof.Gen.ReferenceIdeal
import proofs.«174721_j31482110279899_1_alg».proof.Proof.Gen.ReferenceIdeal.Run
import proofs.«174721_j31482110279899_1_alg».proof.Proof.Gen.ReferenceIdeal.Read
import proofs.«174721_j31482110279899_1_alg».proof.Proof.Gen.Pre_finite_inputs
import proofs.«174721_j31482110279899_1_alg».proof.Proof.RunNamed
import proofs.«174721_j31482110279899_1_alg».proof.Proof.Chain3
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's last stage of those arguments. -/
theorem algebraic : Cert.algebraic_KernelIdeal_ReferenceIdeal := by
  intro m ρ m' ρ' _ hagree
  refine ⟨fun c => Cert.ReferenceIdeal.Read.val_main_v98 (Cert.Bridge.a0 m c) (Cert.Bridge.a1 m c) (Cert.Bridge.a2 m c)
    (Cert.Bridge.a3 m c) (Cert.Bridge.a4 m c) (Cert.Bridge.a5 m c) (Cert.Bridge.a6 m c), ?_, ?_⟩
  · exact (θ_run Cert.KernelIdeal.defs _ _).mono
      (fun _ h c => ⟨(h c).1.trans (Cert.Bridge.W14_v96 m ρ c), (h c).2⟩) (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v98_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
